-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S32x2048x128 : Shape := ⟨3, ![32, 2048, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S256x64 .f32) (main_arg13 : FVec F S64 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S256 .f32) (main_arg8 : FVec F S256 .f32) (main_arg9 : FVec F S256 .f32) (main_arg10 : FVec F S256x64 .f32) (main_arg11 : FVec F S64 .f32) (main_arg12 : FVec F S256x64 .f32) (main_arg13 : FVec F S64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x64 .f32) (main_arg11 : FVec F S64 .f32) (main_arg12 : FVec F S256x64 .f32) (main_arg13 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32x2048x2048 .f32) (main_arg1 : FVec F S32x2048x128 .f32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x64 .f32) (main_arg11 : FVec F S64 .f32) (main_arg12 : FVec F S256x64 .f32) (main_arg13 : FVec F S64 .f32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S32x2048x2048 : Shape := ⟨3, ![32, 2048, 2048]⟩
abbrev S32x2048x128 : Shape := ⟨3, ![32, 2048, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S32x2048x256 : Shape := ⟨3, ![32, 2048, 256]⟩
abbrev S1x512x2048 : Shape := ⟨3, ![1, 512, 2048]⟩
abbrev S1x2048x128 : Shape := ⟨3, ![1, 2048, 128]⟩
abbrev S1x512x256 : Shape := ⟨3, ![1, 512, 256]⟩
abbrev S512x2048 : Shape := ⟨2, ![512, 2048]⟩
abbrev S2048x128 : Shape := ⟨2, ![2048, 128]⟩
abbrev S512x128 : Shape := ⟨2, ![512, 128]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S_ : Shape := ⟨0, ![]⟩
abbrev S32x256 : Shape := ⟨2, ![32, 256]⟩
abbrev S32x64 : Shape := ⟨2, ![32, 64]⟩
abbrev S1x64 : Shape := ⟨2, ![1, 64]⟩

abbrev nBuf : Space → Nat
  | .hbm => 29
  | .vmem => 20
  | .smem => 0
  | _ => 0

abbrev bufTy : (tb : Table) → Fin (tcTables nBuf tb) → BufTy
  | .hbm, ⟨0, _⟩ => ⟨S32x2048x2048, .f32⟩
  | .hbm, ⟨1, _⟩ => ⟨S32x2048x128, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S32x2048x256, .f32⟩
  | .hbm, ⟨15, _⟩ => ⟨S32x2048x256, .f32⟩
  | .hbm, ⟨16, _⟩ => ⟨S_, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x64, .f32⟩
  | .hbm, ⟨22, _⟩ => ⟨S1x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S1x64, .f32⟩
  | .hbm, ⟨27, _⟩ => ⟨S32x64, .f32⟩
  | .hbm, ⟨28, _⟩ => ⟨S32x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S128x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S1x512x256, .f32⟩
  | .local _ .vmem, ⟨9, _⟩ => ⟨S1x512x256, .f32⟩
  | .local _ .vmem, ⟨10, _⟩ => ⟨S1x512x2048, .f32⟩
  | .local _ .vmem, ⟨11, _⟩ => ⟨S1x512x2048, .f32⟩
  | .local _ .vmem, ⟨12, _⟩ => ⟨S1x2048x256, .f32⟩
  | .local _ .vmem, ⟨13, _⟩ => ⟨S1x2048x256, .f32⟩
  | .local _ .vmem, ⟨14, _⟩ => ⟨S256x256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S1x512x256, .f32⟩
  | .local _ .vmem, ⟨19, _⟩ => ⟨S1x512x256, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  reducesTo_S32x2048x256_S32x256_d1 : S32x2048x256.ReducesTo [1] S32x256
  h_S_ : 0 < S_.numel
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  dot_S512x2048_S2048x128_S512x128_1_0_0_1_n_n_wf : DotDims.WF S512x2048 S2048x128 S512x128 [1] [0] [0] [1] [] []
  dot_S512x128_S128x256_S512x256_1_0_0_1_n_n_wf : DotDims.WF S512x128 S128x256 S512x256 [1] [0] [0] [1] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  dot_S32x256_S256x64_S32x64_1_0_0_1_n_n_wf : DotDims.WF S32x256 S256x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .f32 = 32 ∨ (Rect.block (s := S32x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S32x2048x256.size a
  hwx0_6 : ∀ i : grid0.Coords, EltTy.bits .f32 = 32 ∨ (Rect.block (s := S32x2048x256) S1x512x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S32x2048x2048.size a
  hwx1_0 : ∀ i : grid1.Coords, EltTy.bits .f32 = 32 ∨ (Rect.block (s := S32x2048x2048) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S32x2048x256.size a
  hwx1_1 : ∀ i : grid1.Coords, EltTy.bits .f32 = 32 ∨ (Rect.block (s := S32x2048x256) S1x2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x256.size a ≤ S32x2048x256.size a
  hwx1_6 : ∀ i : grid1.Coords, EltTy.bits .f32 = 32 ∨ (Rect.block (s := S32x2048x256) S1x512x256.size (cc1_transform_6 i) (hinb1_6 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x2048x2048 : Shape := ⟨3, ![32, 2048, 2048]⟩
abbrev S32x2048x128 : Shape := ⟨3, ![32, 2048, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S32x2048x256 : Shape := ⟨3, ![32, 2048, 256]⟩
abbrev S1x1x256 : Shape := ⟨3, ![1, 1, 256]⟩
abbrev S_ : Shape := ⟨0, ![]⟩
abbrev S32x2048 : Shape := ⟨2, ![32, 2048]⟩
abbrev S32x2048x1 : Shape := ⟨3, ![32, 2048, 1]⟩
abbrev S32x256 : Shape := ⟨2, ![32, 256]⟩
abbrev S32x64 : Shape := ⟨2, ![32, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x2048x128, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S32x2048x128, .f32⟩
  | .hbm, ⟨15, _⟩ => ⟨S32x2048x256, .f32⟩
  | .hbm, ⟨16, _⟩ => ⟨S1x1x256, .f32⟩
  | .hbm, ⟨17, _⟩ => ⟨S32x2048x256, .f32⟩
  | .hbm, ⟨18, _⟩ => ⟨S32x2048x256, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x256, .f32⟩
  | .hbm, ⟨26, _⟩ => ⟨S32x2048x256, .f32⟩
  | .hbm, ⟨27, _⟩ => ⟨S32x2048x256, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x256, .f32⟩
  | .hbm, ⟨35, _⟩ => ⟨S32x2048x256, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x256, .f32⟩
  | .hbm, ⟨41, _⟩ => ⟨S32x2048x256, .f32⟩
  | .hbm, ⟨42, _⟩ => ⟨S1x1x256, .f32⟩
  | .hbm, ⟨43, _⟩ => ⟨S32x2048x256, .f32⟩
  | .hbm, ⟨44, _⟩ => ⟨S32x2048x256, .f32⟩
  | .hbm, ⟨45, _⟩ => ⟨S1x1x256, .f32⟩
  | .hbm, ⟨46, _⟩ => ⟨S32x2048x256, .f32⟩
  | .hbm, ⟨47, _⟩ => ⟨S32x2048x256, .f32⟩
  | .hbm, ⟨48, _⟩ => ⟨S_, .f32⟩
  | .hbm, ⟨49, _⟩ => ⟨S32x2048x256, .f32⟩
  | .hbm, ⟨50, _⟩ => ⟨S32x2048x256, .f32⟩
  | .hbm, ⟨51, _⟩ => ⟨S32x2048x256, .f32⟩
  | .hbm, ⟨52, _⟩ => ⟨S32x2048x256, .f32⟩
  | .hbm, ⟨53, _⟩ => ⟨S1x1x256, .f32⟩
  | .hbm, ⟨54, _⟩ => ⟨S32x2048x256, .f32⟩
  | .hbm, ⟨55, _⟩ => ⟨S32x2048x256, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x256, .f32⟩
  | .hbm, ⟨63, _⟩ => ⟨S32x2048x256, .f32⟩
  | .hbm, ⟨64, _⟩ => ⟨S32x2048x256, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S32x2048x256, .f32⟩
  | .hbm, ⟨72, _⟩ => ⟨S32x2048x256, .f32⟩
  | .hbm, ⟨73, _⟩ => ⟨S_, .f32⟩
  | .hbm, ⟨74, _⟩ => ⟨S32x2048x1, .f32⟩
  | .hbm, ⟨75, _⟩ => ⟨S32x2048x1, .f32⟩
  | .hbm, ⟨76, _⟩ => ⟨S32x2048x1, .f32⟩
  | .hbm, ⟨77, _⟩ => ⟨S32x2048x256, .f32⟩
  | .hbm, ⟨78, _⟩ => ⟨S32x2048x256, .f32⟩
  | .hbm, ⟨79, _⟩ => ⟨S1x1x256, .f32⟩
  | .hbm, ⟨80, _⟩ => ⟨S32x2048x256, .f32⟩
  | .hbm, ⟨81, _⟩ => ⟨S32x2048x256, .f32⟩
  | .hbm, ⟨82, _⟩ => ⟨S1x1x256, .f32⟩
  | .hbm, ⟨83, _⟩ => ⟨S32x2048x256, .f32⟩
  | .hbm, ⟨84, _⟩ => ⟨S32x2048x256, .f32⟩
  | .hbm, ⟨85, _⟩ => ⟨S_, .f32⟩
  | .hbm, ⟨86, _⟩ => ⟨S32x2048x256, .f32⟩
  | .hbm, ⟨87, _⟩ => ⟨S32x2048x256, .f32⟩
  | .hbm, ⟨88, _⟩ => ⟨S_, .f32⟩
  | .hbm, ⟨89, _⟩ => ⟨S32x256, .f32⟩
  | .hbm, ⟨90, _⟩ => ⟨S_, .f32⟩
  | .hbm, ⟨91, _⟩ => ⟨S32x256, .f32⟩
  | .hbm, ⟨92, _⟩ => ⟨S32x256, .f32⟩
  | .hbm, ⟨93, _⟩ => ⟨S32x64, .f32⟩
  | .hbm, ⟨94, _⟩ => ⟨S1x64, .f32⟩
  | .hbm, ⟨95, _⟩ => ⟨S32x64, .f32⟩
  | .hbm, ⟨96, _⟩ => ⟨S32x64, .f32⟩
  | .hbm, ⟨97, _⟩ => ⟨S32x64, .f32⟩
  | .hbm, ⟨98, _⟩ => ⟨S1x64, .f32⟩
  | .hbm, ⟨99, _⟩ => ⟨S32x64, .f32⟩
  | .hbm, ⟨100, _⟩ => ⟨S32x64, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x2048x256_0_1_2 : S1x1x256.BroadcastsInDim S32x2048x256 (![0, 1, 2] : Fin 3 → Fin S32x2048x256.rank)
  reducesTo_S32x2048x256_S32x2048_d2 : S32x2048x256.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x256_0_1_2 : S32x2048x1.BroadcastsInDim S32x2048x256 (![0, 1, 2] : Fin 3 → Fin S32x2048x256.rank)
  bcast_S_S32x2048x256 : S_.BroadcastsInDim S32x2048x256 (![] : Fin 0 → Fin S32x2048x256.rank)
  reducesTo_S32x2048x256_S32x256_d1 : S32x2048x256.ReducesTo [1] S32x256
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  dot_S32x2048x2048_S32x2048x128_S32x2048x128_2_1_1_2_0_0_wf : DotDims.WF S32x2048x2048 S32x2048x128 S32x2048x128 [2] [1] [1] [2] [0] [0]
  dot_S32x2048x128_S128x256_S32x2048x256_2_0_01_1_n_n_wf : DotDims.WF S32x2048x128 S128x256 S32x2048x256 [2] [0] [0, 1] [1] [] []
  dot_S32x2048x2048_S32x2048x256_S32x2048x256_2_1_1_2_0_0_wf : DotDims.WF S32x2048x2048 S32x2048x256 S32x2048x256 [2] [1] [1] [2] [0] [0]
  dot_S32x2048x256_S256x256_S32x2048x256_2_0_01_1_n_n_wf : DotDims.WF S32x2048x256 S256x256 S32x2048x256 [2] [0] [0, 1] [1] [] []
  dot_S32x256_S256x64_S32x64_1_0_0_1_n_n_wf : DotDims.WF S32x256 S256x64 S32x64 [1] [0] [0] [1] [] []

variable [Facts₀]

def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf
def dot_S32x2048x128_S128x256_S32x2048x256_2_0_01_1_n_n : DotDims S32x2048x128 S128x256 S32x2048x256 where
  lhsContracting := [2]
  rhsContracting := [0]
  lhsNonContracting := [0, 1]
  rhsNonContracting := [1]
  lhsBatch := []
  rhsBatch := []
  wf := dot_S32x2048x128_S128x256_S32x2048x256_2_0_01_1_n_n_wf
def dot_S32x2048x2048_S32x2048x256_S32x2048x256_2_1_1_2_0_0 : DotDims S32x2048x2048 S32x2048x256 S32x2048x256 where
  lhsContracting := [2]
  rhsContracting := [1]
  lhsNonContracting := [1]
  rhsNonContracting := [2]
  lhsBatch := [0]
  rhsBatch := [0]
  wf := dot_S32x2048x2048_S32x2048x256_S32x2048x256_2_1_1_2_0_0_wf
def dot_S32x2048x256_S256x256_S32x2048x256_2_0_01_1_n_n : DotDims S32x2048x256 S256x256 S32x2048x256 where
  lhsContracting := [2]
  rhsContracting := [0]
  lhsNonContracting := [0, 1]
  rhsNonContracting := [1]
  lhsBatch := []
  rhsBatch := []
  wf := dot_S32x2048x256_S256x256_S32x2048x256_2_0_01_1_n_n_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf

class Facts : Prop extends Facts₀ where

variable [Facts]
-- ==== Proof.RowSpec.lean ====
/-
  The mathematics of one graph-convolution layer, row by row, on the extended reals.

  For one node (one row `a` of the adjacency matrix of its batch element, length `M`), the features `x` of the
  batch element's `M` nodes (`Fi` each), a weight matrix `W` and vectors `b`, `g`, `β` of length `H`:
    aggregate   agg f = Σ_m a m · x m f
    linear      lin h = Σ_f agg f · W f h + b h
    mean        μ     = (Σ_h lin h) / 256
    variance    σ²    = (Σ_h (lin h − μ)²) / 256
    out h             = max (((lin h − μ) · rsqrt (σ² + ε)) · g h + β h) 0
  with `256` and `ε` the f32 words both programs print (`0x43800000`, `0x3727C5AC`), read at the ideal values,
  and the quotient and reciprocal square root the ideal instance's. A row of the output depends on one row of
  the adjacency matrix only, which is why any tiling of the rows computes the same array.
-/
import Idealize.ShloMosaic.PureOps.Ideal
import Idealize.ShloMosaic.Lib.ValueIdx

noncomputable section

namespace GcnSpec

open Idealize.ShloMosaic Idealize.ShloMosaic.ValueIdx

/-- Aggregate over the nodes, then the linear map with its bias: `Σ_f (Σ_m a m · x m f) · W f h + b h`. -/
def lin {M Fi H : ℕ} (a : Fin M → EReal) (x : Fin M → Fin Fi → EReal) (W : Fin Fi → Fin H → EReal) (b : Fin H → EReal)
    (h : Fin H) : EReal :=
  (∑ f : Fin Fi, (∑ m : Fin M, a m * x m f) * W f h) + b h

/-- The sum of a row divided by the f32 word of `256.0`, as both programs take a mean over the 256 features. -/
def mean256 {H : ℕ} (v : Fin H → EReal) : EReal :=
  Ideal.div (∑ h : Fin H, v h) (Ideal.ofBits .f32 0x43800000#32)

/-- A row centred at its mean. -/
def centred {H : ℕ} (l : Fin H → EReal) (h : Fin H) : EReal := l h - mean256 l

/-- Layer normalisation of a row with scale `g` and shift `β`, then the rectifier. -/
def normRelu {H : ℕ} (l g β : Fin H → EReal) (h : Fin H) : EReal :=
  max ((centred l h * Ideal.rsqrt (mean256 (fun k => centred l k * centred l k) + Ideal.ofBits .f32 0x3727C5AC#32)) * g h + β h) 0

/-- One output row of the layer. -/
def row {M Fi H : ℕ} (a : Fin M → EReal) (x : Fin M → Fin Fi → EReal) (W : Fin Fi → Fin H → EReal) (b g β : Fin H → EReal) :
    Fin H → EReal :=
  normRelu (lin a x W b) g β

/-- A row is a function of its arguments' values only. -/
theorem row_congr {M Fi H : ℕ} {a a' : Fin M → EReal} {x x' : Fin M → Fin Fi → EReal} {W W' : Fin Fi → Fin H → EReal}
    {b b' g g' β β' : Fin H → EReal} (ha : ∀ m, a m = a' m) (hx : ∀ m f, x m f = x' m f) (hW : ∀ f k, W f k = W' f k)
    (hb : ∀ k, b k = b' k) (hg : ∀ k, g k = g' k) (hβ : ∀ k, β k = β' k) (h : Fin H) :
    row a x W b g β h = row a' x' W' b' g' β' h := by
  have ea : a = a' := funext ha
  have ex : x = x' := funext fun m => funext (hx m)
  have eW : W = W' := funext fun f => funext (hW f)
  have eb : b = b' := funext hb
  have eg : g = g' := funext hg
  have eβ : β = β' := funext hβ
  rw [ea, ex, eW, eb, eg, eβ]

/-- The layer on whole arrays at one output coordinate: batch element `bb`, node `n`, feature `h`. The adjacency is
    `[32, 2048, 2048]`, the features `[32, 2048, Fi]`, the weights `[Fi, 256]`, the vectors `[256]`. -/
def layerAt {Fi : ℕ} (A : (⟨3, ![32, 2048, 2048]⟩ : Shape).Idx → EReal) (X : (⟨3, ![32, 2048, Fi]⟩ : Shape).Idx → EReal)
    (W : (⟨2, ![Fi, 256]⟩ : Shape).Idx → EReal) (b g β : (⟨1, ![256]⟩ : Shape).Idx → EReal)
    (bb : Fin 32) (n : Fin 2048) (h : Fin 256) : EReal :=
  row (fun m : Fin 2048 => A (ix3 bb n m)) (fun (m : Fin 2048) (f : Fin Fi) => X (ix3 bb m f)) (fun (f : Fin Fi) (k : Fin 256) => W (ix2 f k))
    (fun k : Fin 256 => b (ix1 k)) (fun k : Fin 256 => g (ix1 k)) (fun k : Fin 256 => β (ix1 k)) h

/-- The layer's output array `[32, 2048, 256]`. -/
def layer {Fi : ℕ} (A : (⟨3, ![32, 2048, 2048]⟩ : Shape).Idx → EReal) (X : (⟨3, ![32, 2048, Fi]⟩ : Shape).Idx → EReal)
    (W : (⟨2, ![Fi, 256]⟩ : Shape).Idx → EReal) (b g β : (⟨1, ![256]⟩ : Shape).Idx → EReal) :
    (⟨3, ![32, 2048, 256]⟩ : Shape).Idx → EReal :=
  fun i => layerAt A X W b g β (i 0) (i 1) (i 2)

theorem layer_ix3 {Fi : ℕ} (A : (⟨3, ![32, 2048, 2048]⟩ : Shape).Idx → EReal) (X : (⟨3, ![32, 2048, Fi]⟩ : Shape).Idx → EReal)
    (W : (⟨2, ![Fi, 256]⟩ : Shape).Idx → EReal) (b g β : (⟨1, ![256]⟩ : Shape).Idx → EReal) (bb : Fin 32) (n : Fin 2048) (h : Fin 256) :
    layer A X W b g β (ix3 bb n h) = layerAt A X W b g β bb n h := rfl

end GcnSpec

end
-- ==== Proof.RefValue.lean ====
/-
  What the idealized reference returns, as the same function of its arguments as the kernel's.

  The reference's @main is, twice over, the layer (two contractions, the bias, layer normalisation over the feature
  axis, the rectifier), then the mean over the nodes and the two linear heads. Its normalisation is the same composition
  of host operations in both layers (`lnRef`); read at a coordinate it is `GcnSpec.normRelu` of the row (`lnRef_apply`: the
  host's sum is the initial zero plus the sum over the feature coordinate, its quotient and reciprocal square root the
  ideal instance's, each broadcast read at its source coordinate). Each layer's contractions read at a coordinate are
  `GcnSpec.lin` (`lin1_apply`, `lin2_apply`, from the generated read-at-an-index lemmas). So the first layer's stage is
  `GcnSpec.layer` of the arguments and the second's is `GcnSpec.layer` of the adjacency, the first layer's stage and the
  second layer's parameters; the closing operations are the kernel program's own (`out0_eq`, `out1_eq`).
-/
import proofs.«104312_j33552284516575_1_alg».proof.Proof.Gen.ReferenceIdeal.Read
import proofs.«104312_j33552284516575_1_alg».proof.Proof.RowSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The normalisation's host operations, composed, and read at a coordinate -/

/-- A `[32, 2048, 1]` column broadcast along the feature axis. -/
def bcastCol (y : FVec Ideal S32x2048x1 .f32) : FVec Ideal S32x2048x256 .f32 :=
  broadcastInDim S32x2048x256 ![0, 1, 2] bcast_S32x2048x1_S32x2048x256_0_1_2 y

/-- A `[256]` vector broadcast over the batch and node axes. -/
def bcastVec (v : FVec Ideal S256 .f32) : FVec Ideal S32x2048x256 .f32 :=
  broadcastInDim S32x2048x256 ![0, 1, 2] bcast_S1x1x256_S32x2048x256_0_1_2 (broadcastInDim S1x1x256 ![2] bcast_S256_S1x1x256_2 v)

/-- Each row's sum over the feature axis from the zero word, kept as a column, divided by the f32 word of `256.0`. -/
def meanCol (l : FVec Ideal S32x2048x256 .f32) : FVec Ideal S32x2048x1 .f32 :=
  Host.divf (F := Ideal)
    (broadcastInDim S32x2048x1 ![0, 1] bcast_S32x2048_S32x2048x1_0_1
      (Host.reduceAdd (F := Ideal) l (constant (F := Ideal) S_ .f32 0x00000000#32) reducesTo_S32x2048x256_S32x2048_d2 h_S_))
    (broadcastInDim S32x2048x1 ![] bcast_S_S32x2048x1 (constant (F := Ideal) S_ .f32 0x43800000#32))

/-- Each row minus its mean. -/
def centre (l : FVec Ideal S32x2048x256 .f32) : FVec Ideal S32x2048x256 .f32 := subf l (bcastCol (meanCol l))

/-- The reference's layer normalisation with scale `g` and shift `β`, and the rectifier. -/
def lnRef (l : FVec Ideal S32x2048x256 .f32) (g β : FVec Ideal S256 .f32) : FVec Ideal S32x2048x256 .f32 :=
  maximumf
    (addf
      (mulf
        (mulf (centre l)
          (bcastCol (Host.rsqrt (F := Ideal)
            (addf (meanCol (mulf (centre l) (centre l)))
              (broadcastInDim S32x2048x1 ![] bcast_S_S32x2048x1 (constant (F := Ideal) S_ .f32 0x3727C5AC#32))))))
        (bcastVec g))
      (bcastVec β))
    (broadcastInDim S32x2048x256 ![] bcast_S_S32x2048x256 (constant (F := Ideal) S_ .f32 0x00000000#32))

theorem bcastCol_apply (y : FVec Ideal S32x2048x1 .f32) (bb : Fin 32) (n : Fin 2048) (h : Fin 256) :
    bcastCol y (ix3 bb n h) = y (ix3 bb n (0 : Fin 1)) := by
  unfold bcastCol
  exact broadcastInDim_apply _ bcast_S32x2048x1_S32x2048x256_0_1_2 y (ix3 bb n h) (ix3 bb n (0 : Fin 1)) (fun a => match a with
    | ⟨0, _⟩ => by show bb.val = if (32 : Nat) = 1 then 0 else bb.val; rw [if_neg (by decide)]
    | ⟨1, _⟩ => by show n.val = if (2048 : Nat) = 1 then 0 else n.val; rw [if_neg (by decide)]
    | ⟨2, _⟩ => by show 0 = if (1 : Nat) = 1 then 0 else h.val; rw [if_pos rfl])

theorem bcastVec_apply (v : FVec Ideal S256 .f32) (bb : Fin 32) (n : Fin 2048) (h : Fin 256) :
    bcastVec v (ix3 bb n h) = v (ix1 h) := by
  unfold bcastVec
  refine (broadcastInDim_apply _ bcast_S1x1x256_S32x2048x256_0_1_2 _ (ix3 bb n h) (ix3 (0 : Fin 1) (0 : Fin 1) h) (fun a => match a with
    | ⟨0, _⟩ => by show 0 = if (1 : Nat) = 1 then 0 else bb.val; rw [if_pos rfl]
    | ⟨1, _⟩ => by show 0 = if (1 : Nat) = 1 then 0 else n.val; rw [if_pos rfl]
    | ⟨2, _⟩ => by show h.val = if (256 : Nat) = 1 then 0 else h.val; rw [if_neg (by decide)])).trans ?_
  exact broadcastInDim_apply _ bcast_S256_S1x1x256_2 v (ix3 (0 : Fin 1) (0 : Fin 1) h) (ix1 h) (fun a => match a with
    | ⟨0, _⟩ => by show h.val = if (256 : Nat) = 1 then 0 else h.val; rw [if_neg (by decide)])

theorem meanCol_apply (l : FVec Ideal S32x2048x256 .f32) (bb : Fin 32) (n : Fin 2048) (u : Fin 1) :
    meanCol l (ix3 bb n u) = GcnSpec.mean256 (fun k : Fin 256 => l (ix3 bb n k)) := by
  unfold meanCol GcnSpec.mean256
  show Ideal.div _ _ = _
  refine congrArg₂ Ideal.div ?_ ?_
  · refine (broadcastInDim_apply _ bcast_S32x2048_S32x2048x1_0_1 _ (ix3 bb n u) (ix2 bb n) (fun a => match a with
      | ⟨0, _⟩ => by show bb.val = if (32 : Nat) = 1 then 0 else bb.val; rw [if_neg (by decide)]
      | ⟨1, _⟩ => by show n.val = if (2048 : Nat) = 1 then 0 else n.val; rw [if_neg (by decide)])).trans ?_
    simp only [Host.reduceAdd, Ideal.hostReduceAdd_def]
    rw [Ideal.hostReduceAdd_single reducesTo_S32x2048x256_S32x2048_d2 (by decide)]
    show Ideal.ofBits .f32 0x00000000#32 + _ = _
    rw [Ideal.ofBits_zero_f32, zero_add]
    refine Finset.sum_congr rfl fun k _ => ?_
    exact congrArg l (funext fun a => Fin.ext (by match a with | ⟨0, _⟩ => rfl | ⟨1, _⟩ => rfl | ⟨2, _⟩ => rfl))
  · exact broadcastInDim_apply _ bcast_S_S32x2048x1 (constant (F := Ideal) S_ .f32 0x43800000#32) (ix3 bb n u) ix0 (fun a => a.elim0)

theorem centre_apply (l : FVec Ideal S32x2048x256 .f32) (bb : Fin 32) (n : Fin 2048) (h : Fin 256) :
    centre l (ix3 bb n h) = GcnSpec.centred (fun k : Fin 256 => l (ix3 bb n k)) h := by
  unfold centre GcnSpec.centred
  rw [subf_apply, bcastCol_apply, meanCol_apply]

theorem lnRef_apply (l : FVec Ideal S32x2048x256 .f32) (g β : FVec Ideal S256 .f32) (bb : Fin 32) (n : Fin 2048) (h : Fin 256) :
    lnRef l g β (ix3 bb n h)
      = GcnSpec.normRelu (fun k : Fin 256 => l (ix3 bb n k)) (fun k : Fin 256 => g (ix1 k)) (fun k : Fin 256 => β (ix1 k)) h := by
  unfold lnRef GcnSpec.normRelu
  rw [maximumf_apply, addf_apply, mulf_apply, mulf_apply, centre_apply, bcastCol_apply, bcastVec_apply, bcastVec_apply]
  refine congrArg₂ max (congrArg₂ (· + ·) (congrArg₂ (· * ·) (congrArg₂ (· * ·) rfl ?_) rfl) rfl) ?_
  · show Ideal.rsqrt (meanCol (mulf (centre l) (centre l)) (ix3 bb n (0 : Fin 1)) + _) = _
    rw [meanCol_apply]
    refine congrArg₂ (fun z e => Ideal.rsqrt (GcnSpec.mean256 z + e)) ?_ ?_
    · funext k
      rw [mulf_apply, centre_apply]
    · exact broadcastInDim_apply _ bcast_S_S32x2048x1 (constant (F := Ideal) S_ .f32 0x3727C5AC#32) (ix3 bb n (0 : Fin 1)) ix0 (fun a => a.elim0)
  · refine (broadcastInDim_apply _ bcast_S_S32x2048x256 (constant (F := Ideal) S_ .f32 0x00000000#32) (ix3 bb n h) ix0 (fun a => a.elim0)).trans ?_
    exact Ideal.ofBits_zero_f32

/-! ## The two layers' stages -/

section Stages
variable (x0 : FVec Ideal S32x2048x2048 .f32) (x1 : FVec Ideal S32x2048x128 .f32) (x2 : FVec Ideal S128x256 .f32)
  (x3 x4 x5 : FVec Ideal S256 .f32) (x6 : FVec Ideal S256x256 .f32) (x7 x8 x9 : FVec Ideal S256 .f32)

theorem stage1_eq : val_main_v29 (F := Ideal) x0 x1 x2 x3 x4 x5 = lnRef (val_main_v4 (F := Ideal) x0 x1 x2 x3) x4 x5 := rfl

theorem stage2_eq : val_main_v59 (F := Ideal) x0 x1 x2 x3 x4 x5 x6 x7 x8 x9
    = lnRef (val_main_v34 (F := Ideal) x0 x1 x2 x3 x4 x5 x6 x7) x8 x9 := rfl

/-- The first layer's contractions and bias at a coordinate. -/
theorem lin1_apply (bb : Fin 32) (n : Fin 2048) (h : Fin 256) :
    val_main_v4 (F := Ideal) x0 x1 x2 x3 (ix3 bb n h)
      = GcnSpec.lin (fun m : Fin 2048 => x0 (ix3 bb n m)) (fun (m : Fin 2048) (f : Fin 128) => x1 (ix3 bb m f))
          (fun (f : Fin 128) (k : Fin 256) => x2 (ix2 f k)) (fun k : Fin 256 => x3 (ix1 k)) h := by
  rw [val_main_v4_apply, val_main_v1_apply, val_main_v3_apply, val_main_v2_apply]
  unfold GcnSpec.lin
  refine congrArg₂ (· + ·) (Finset.sum_congr rfl fun f _ => congrArg₂ (· * ·) ?_ ?_) ?_
  · rw [val_main_v0_apply]
    refine Finset.sum_congr rfl fun m _ => congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
  · exact congrArg x2 (funext fun a => Fin.ext (by match a with | ⟨0, _⟩ => rfl | ⟨1, _⟩ => rfl))
  · exact congrArg x3 (funext fun a => Fin.ext (by match a with | ⟨0, _⟩ => rfl))

/-- The second layer's contractions and bias at a coordinate, over the first layer's stage. -/
theorem lin2_apply (bb : Fin 32) (n : Fin 2048) (h : Fin 256) :
    val_main_v34 (F := Ideal) x0 x1 x2 x3 x4 x5 x6 x7 (ix3 bb n h)
      = GcnSpec.lin (fun m : Fin 2048 => x0 (ix3 bb n m))
          (fun (m : Fin 2048) (f : Fin 256) => val_main_v29 (F := Ideal) x0 x1 x2 x3 x4 x5 (ix3 bb m f))
          (fun (f : Fin 256) (k : Fin 256) => x6 (ix2 f k)) (fun k : Fin 256 => x7 (ix1 k)) h := by
  rw [val_main_v34_apply, val_main_v31_apply, val_main_v33_apply, val_main_v32_apply]
  unfold GcnSpec.lin
  refine congrArg₂ (· + ·) (Finset.sum_congr rfl fun f _ => congrArg₂ (· * ·) ?_ ?_) ?_
  · rw [val_main_v30_apply]
    refine Finset.sum_congr rfl fun m _ => congrArg₂ (· * ·) (congrArg x0 ?_) (congrArg (val_main_v29 (F := Ideal) x0 x1 x2 x3 x4 x5) ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
  · exact congrArg x6 (funext fun a => Fin.ext (by match a with | ⟨0, _⟩ => rfl | ⟨1, _⟩ => rfl))
  · exact congrArg x7 (funext fun a => Fin.ext (by match a with | ⟨0, _⟩ => rfl))

/-- THE FIRST LAYER'S STAGE is the layer function of the arguments. -/
theorem layer1_eq : val_main_v29 (F := Ideal) x0 x1 x2 x3 x4 x5 = GcnSpec.layer x0 x1 x2 x3 x4 x5 := by
  funext i
  obtain ⟨bb, n, h, rfl⟩ : ∃ (bb : Fin 32) (n : Fin 2048) (h : Fin 256), i = ix3 bb n h := ⟨i 0, i 1, i 2, eq_ix3 i⟩
  rw [stage1_eq, lnRef_apply, GcnSpec.layer_ix3]
  unfold GcnSpec.layerAt GcnSpec.row
  refine congrArg (fun l => GcnSpec.normRelu l _ _ h) ?_
  funext k
  exact lin1_apply x0 x1 x2 x3 bb n k

/-- THE SECOND LAYER'S STAGE is the layer function of the adjacency, the first layer's stage and its own parameters. -/
theorem layer2_eq : val_main_v59 (F := Ideal) x0 x1 x2 x3 x4 x5 x6 x7 x8 x9
    = GcnSpec.layer x0 (GcnSpec.layer x0 x1 x2 x3 x4 x5) x6 x7 x8 x9 := by
  rw [← layer1_eq x0 x1 x2 x3 x4 x5]
  funext i
  obtain ⟨bb, n, h, rfl⟩ : ∃ (bb : Fin 32) (n : Fin 2048) (h : Fin 256), i = ix3 bb n h := ⟨i 0, i 1, i 2, eq_ix3 i⟩
  rw [stage2_eq, lnRef_apply, GcnSpec.layer_ix3]
  unfold GcnSpec.layerAt GcnSpec.row
  refine congrArg (fun l => GcnSpec.normRelu l _ _ h) ?_
  funext k
  exact lin2_apply x0 x1 x2 x3 x4 x5 x6 x7 bb n k

end Stages

end Cert.ReferenceIdeal.RefValue

end
-- ==== Proof.LibRowOps.lean ====
/-
  General read-at-an-index lemmas for row-wise kernels at the ideal instance, over arbitrary extents:
  the two keepdims column forms (a vector cast to a one-column matrix; a one-column matrix broadcast
  along its rows), a plain matrix product into the zero splat as a sum over the contracted coordinate,
  and a lane sum of a matrix over its second axis as a sum over that coordinate.
-/
import Idealize.ShloMosaic.Lib.ValueIdx
import Idealize.ShloMosaic.Lib.ValueLayout
import Idealize.ShloMosaic.Lib.Pipeline.Value
import Idealize.ShloMosaic.PureOps.Ideal.Laws

noncomputable section

namespace RowOps

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In a plain `M×K` by `K×N` product the left operand's row is the output's row. -/
theorem plain_lhs_0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Its column is the contracted coordinate. -/
theorem plain_lhs_1 (M K N : ℕ) (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row is the contracted coordinate. -/
theorem plain_rhs_0 (M K N : ℕ) (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Its column is the output's column. -/
theorem plain_rhs_1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero splat, read at `(p, q)` at the ideal values: the sum over the contracted
    coordinate `k` of the left operand at `(p, k)` times the right operand at `(k, q)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 M K N _ _
      | ⟨1, _⟩ => exact (plain_lhs_1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 M K N _ _).trans hk
      | ⟨1, _⟩ => exact plain_rhs_1 M K N _ _)
  rw [el, er]

/-- A float lane sum of an `[a, b]` matrix over its second axis, read at row `r` at the ideal values: the sum over
    the column `k` of the matrix at `(r, k)`. -/
theorem multiReduction_add_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end RowOps

end
-- ==== Proof.Pay.lean ====
/-
  The two kernel bodies as functions of their loaded blocks, read at an index at the ideal values.

  Both bodies are the same text at two feature widths. Each is: the block's rows of the adjacency times the batch
  element's features (a plain product, the narrowing of its operands the identity here), the linear map and its
  bias, and then — the same for both — layer normalisation over the 256 features and the rectifier. The printed
  payloads are restated as compositions of the few pieces below (`pay0_eq`, `pay1_eq`, by unfolding), and each piece is
  read at a coordinate: row `r` of the block's 512, feature `h` of the 256. The result is `GcnSpec.row` of row `r` of the
  adjacency block and the whole feature block.
-/
import proofs.«104312_j33552284516575_1_alg».proof.Proof.Gen.KernelIdeal.Skeleton
import proofs.«104312_j33552284516575_1_alg».proof.Proof.LibRowOps
import proofs.«104312_j33552284516575_1_alg».proof.Proof.RowSpec

noncomputable section

namespace Cert.KernelIdeal.Pay

open Cert.KernelIdeal Cert.KernelIdeal.Gen Idealize.ShloMosaic Idealize.ShloMosaic.ValueIdx

section Pieces
variable {F : FTy → Type} [FloatOps F]

/-- Region 0: the adjacency block's rows times the features, `[512, 2048] · [2048, 128]`. -/
def agg0 (v0 : Vec F S1x512x2048 .f32) (v3 : Vec F S1x2048x128 .f32) : FVec F S512x128 .f32 :=
  matmul dot_S512x2048_S2048x128_S512x128_1_0_0_1_n_n none
    (truncf .bf16 (shapeCast S512x2048 v0 shapeCasts_S1x512x2048_S512x2048) bitsLt_bf16_f32)
    (truncf .bf16 (shapeCast S2048x128 v3 shapeCasts_S1x2048x128_S2048x128) bitsLt_bf16_f32)
    (constant S512x128 .f32 0x00000000#32)

/-- Region 0: the linear map `[512, 128] · [128, 256]` and the bias row. -/
def lin0 (v0 : Vec F S1x512x2048 .f32) (v3 : Vec F S1x2048x128 .f32) (v8 : Vec F S128x256 .f32) (v11 : Vec F S256 .f32) :
    FVec F S512x256 .f32 :=
  addf (matmul dot_S512x128_S128x256_S512x256_1_0_0_1_n_n none (truncf .bf16 (agg0 v0 v3) bitsLt_bf16_f32)
      (truncf .bf16 v8 bitsLt_bf16_f32) (constant S512x256 .f32 0x00000000#32))
    (broadcastTo S512x256 (shapeCast S1x256 v11 shapeCasts_S256_S1x256) broadcasts_S1x256_S512x256)

/-- Region 1: the adjacency block's rows times the first layer's output, `[512, 2048] · [2048, 256]`. -/
def agg1 (v0 : Vec F S1x512x2048 .f32) (v3 : Vec F S1x2048x256 .f32) : FVec F S512x256 .f32 :=
  matmul dot_S512x2048_S2048x256_S512x256_1_0_0_1_n_n none
    (truncf .bf16 (shapeCast S512x2048 v0 shapeCasts_S1x512x2048_S512x2048) bitsLt_bf16_f32)
    (truncf .bf16 (shapeCast S2048x256 v3 shapeCasts_S1x2048x256_S2048x256) bitsLt_bf16_f32)
    (constant S512x256 .f32 0x00000000#32)

/-- Region 1: the linear map `[512, 256] · [256, 256]` and the bias row. -/
def lin1 (v0 : Vec F S1x512x2048 .f32) (v3 : Vec F S1x2048x256 .f32) (v8 : Vec F S256x256 .f32) (v11 : Vec F S256 .f32) :
    FVec F S512x256 .f32 :=
  addf (matmul dot_S512x256_S256x256_S512x256_1_0_0_1_n_n none (truncf .bf16 (agg1 v0 v3) bitsLt_bf16_f32)
      (truncf .bf16 v8 bitsLt_bf16_f32) (constant S512x256 .f32 0x00000000#32))
    (broadcastTo S512x256 (shapeCast S1x256 v11 shapeCasts_S256_S1x256) broadcasts_S1x256_S512x256)

/-- Each row's sum over the 256 features, kept as a column, divided by `256`. -/
def meanCol (v : FVec F S512x256 .f32) : FVec F S512x1 .f32 :=
  divf (shapeCast S512x1 (multiReduction .add [1] S512 v 0x00000000#32 reduces_S512x256_S512 (.inl rfl) rfl) shapeCasts_S512_S512x1)
    (broadcast S512x1 (Scalar.ofBits .f32 0x43800000#32))

/-- Each row minus its mean. -/
def centre (v : FVec F S512x256 .f32) : FVec F S512x256 .f32 :=
  subf v (broadcastTo S512x256 (meanCol v) broadcasts_S512x1_S512x256)

/-- Normalise each row, scale by `v31`, shift by `v35`, rectify, and cast to the output block's shape. -/
def lnRelu (v : FVec F S512x256 .f32) (v31 v35 : Vec F S256 .f32) : FVec F S1x512x256 .f32 :=
  shapeCast S1x512x256
    (maximumf
      (addf
        (mulf
          (mulf (centre v)
            (broadcastTo S512x256
              (rsqrt (addf (meanCol (mulf (centre v) (centre v))) (broadcast S512x1 (Scalar.ofBits .f32 0x3727C5AC#32))))
              broadcasts_S512x1_S512x256))
          (broadcastTo S512x256 (shapeCast S1x256 v31 shapeCasts_S256_S1x256) broadcasts_S1x256_S512x256))
        (broadcastTo S512x256 (shapeCast S1x256 v35 shapeCasts_S256_S1x256) broadcasts_S1x256_S512x256))
      (broadcast S512x256 (Scalar.ofBits .f32 0x00000000#32)))
    shapeCasts_S512x256_S1x512x256

/-- Region 0's stored value is the normalised, rectified linear map of its blocks. -/
theorem pay0_eq (v0 : Vec F S1x512x2048 .f32) (v3 : Vec F S1x2048x128 .f32) (v8 : Vec F S128x256 .f32) (v11 v31 v35 : Vec F S256 .f32) :
    k0_pay1 (k0_pay2 v0 v3 v8 v11 v31 v35) (Scalar.ofBits .f32 0x00000000#32) = lnRelu (lin0 v0 v3 v8 v11) v31 v35 := rfl

/-- Region 1's likewise. -/
theorem pay1_eq (v0 : Vec F S1x512x2048 .f32) (v3 : Vec F S1x2048x256 .f32) (v8 : Vec F S256x256 .f32) (v11 v31 v35 : Vec F S256 .f32) :
    k1_pay1 (k1_pay2 v0 v3 v8 v11 v31 v35) (Scalar.ofBits .f32 0x00000000#32) = lnRelu (lin1 v0 v3 v8 v11) v31 v35 := rfl

end Pieces

/-! ## The pieces at a coordinate, at the ideal values -/

theorem agg0_apply (v0 : Vec Ideal S1x512x2048 .f32) (v3 : Vec Ideal S1x2048x128 .f32) (r : Fin 512) (f : Fin 128) :
    agg0 v0 v3 (ix2 r f) = ∑ m : Fin 2048, v0 (ix3 (0 : Fin 1) r m) * v3 (ix3 (0 : Fin 1) m f) := by
  unfold agg0
  refine (RowOps.matmul_plain_zero_apply (M := 512) (K := 2048) (N := 128) none _ _ r f).trans ?_
  refine Finset.sum_congr rfl fun m _ => ?_
  rw [truncf_apply, truncf_apply, shapeCast_1ab_ab_apply, shapeCast_1ab_ab_apply]

theorem lin0_apply (v0 : Vec Ideal S1x512x2048 .f32) (v3 : Vec Ideal S1x2048x128 .f32) (v8 : Vec Ideal S128x256 .f32) (v11 : Vec Ideal S256 .f32)
    (r : Fin 512) (h : Fin 256) :
    lin0 v0 v3 v8 v11 (ix2 r h)
      = GcnSpec.lin (fun m : Fin 2048 => v0 (ix3 (0 : Fin 1) r m)) (fun (m : Fin 2048) (f : Fin 128) => v3 (ix3 (0 : Fin 1) m f))
          (fun (f : Fin 128) (k : Fin 256) => v8 (ix2 f k)) (fun k : Fin 256 => v11 (ix1 k)) h := by
  unfold lin0 GcnSpec.lin
  rw [addf_apply]
  refine congrArg₂ (· + ·) ?_ ?_
  · refine (RowOps.matmul_plain_zero_apply (M := 512) (K := 128) (N := 256) none _ _ r h).trans ?_
    refine Finset.sum_congr rfl fun f _ => ?_
    rw [truncf_apply, truncf_apply, agg0_apply]
  · rw [broadcastTo_1b_ab_apply, shapeCast_a_1a_apply]

theorem agg1_apply (v0 : Vec Ideal S1x512x2048 .f32) (v3 : Vec Ideal S1x2048x256 .f32) (r : Fin 512) (f : Fin 256) :
    agg1 v0 v3 (ix2 r f) = ∑ m : Fin 2048, v0 (ix3 (0 : Fin 1) r m) * v3 (ix3 (0 : Fin 1) m f) := by
  unfold agg1
  refine (RowOps.matmul_plain_zero_apply (M := 512) (K := 2048) (N := 256) none _ _ r f).trans ?_
  refine Finset.sum_congr rfl fun m _ => ?_
  rw [truncf_apply, truncf_apply, shapeCast_1ab_ab_apply, shapeCast_1ab_ab_apply]

theorem lin1_apply (v0 : Vec Ideal S1x512x2048 .f32) (v3 : Vec Ideal S1x2048x256 .f32) (v8 : Vec Ideal S256x256 .f32) (v11 : Vec Ideal S256 .f32)
    (r : Fin 512) (h : Fin 256) :
    lin1 v0 v3 v8 v11 (ix2 r h)
      = GcnSpec.lin (fun m : Fin 2048 => v0 (ix3 (0 : Fin 1) r m)) (fun (m : Fin 2048) (f : Fin 256) => v3 (ix3 (0 : Fin 1) m f))
          (fun (f : Fin 256) (k : Fin 256) => v8 (ix2 f k)) (fun k : Fin 256 => v11 (ix1 k)) h := by
  unfold lin1 GcnSpec.lin
  rw [addf_apply]
  refine congrArg₂ (· + ·) ?_ ?_
  · refine (RowOps.matmul_plain_zero_apply (M := 512) (K := 256) (N := 256) none _ _ r h).trans ?_
    refine Finset.sum_congr rfl fun f _ => ?_
    rw [truncf_apply, truncf_apply, agg1_apply]
  · rw [broadcastTo_1b_ab_apply, shapeCast_a_1a_apply]

theorem meanCol_apply (v : FVec Ideal S512x256 .f32) (r : Fin 512) (u : Fin 1) :
    meanCol v (ix2 r u) = GcnSpec.mean256 (fun k : Fin 256 => v (ix2 r k)) := by
  unfold meanCol GcnSpec.mean256
  rw [divf_apply, RowOps.shapeCast_a_a1_apply]
  refine congrArg₂ Ideal.div ?_ rfl
  exact RowOps.multiReduction_add_axis1_apply (a := 512) (b := 256) v _ _ _ _ r

theorem centre_apply (v : FVec Ideal S512x256 .f32) (r : Fin 512) (h : Fin 256) :
    centre v (ix2 r h) = GcnSpec.centred (fun k : Fin 256 => v (ix2 r k)) h := by
  unfold centre GcnSpec.centred
  rw [subf_apply, RowOps.broadcastTo_a1_ab_apply, meanCol_apply]

theorem lnRelu_apply (v : FVec Ideal S512x256 .f32) (v31 v35 : Vec Ideal S256 .f32) (u : Fin 1) (r : Fin 512) (h : Fin 256) :
    lnRelu v v31 v35 (ix3 u r h)
      = GcnSpec.normRelu (fun k : Fin 256 => v (ix2 r k)) (fun k : Fin 256 => v31 (ix1 k)) (fun k : Fin 256 => v35 (ix1 k)) h := by
  unfold lnRelu GcnSpec.normRelu
  rw [shapeCast_ab_1ab_apply, maximumf_apply, addf_apply, mulf_apply, mulf_apply, centre_apply, broadcast_apply,
    RowOps.broadcastTo_a1_ab_apply, broadcastTo_1b_ab_apply, broadcastTo_1b_ab_apply, shapeCast_a_1a_apply, shapeCast_a_1a_apply]
  refine congrArg₂ max (congrArg₂ (· + ·) (congrArg₂ (· * ·) (congrArg₂ (· * ·) rfl ?_) rfl) rfl) Ideal.ofBits_zero_f32
  show Ideal.rsqrt (meanCol (mulf (centre v) (centre v)) (ix2 r (0 : Fin 1)) + Ideal.ofBits .f32 0x3727C5AC#32) = _
  rw [meanCol_apply]
  refine congrArg (fun z => Ideal.rsqrt (GcnSpec.mean256 z + _)) ?_
  funext k
  rw [mulf_apply, centre_apply]

/-- REGION 0's stored block at row `r`, feature `h`: the layer's row of the adjacency block's row `r`. -/
theorem pay0_apply (x0 : Vec Ideal S1x512x2048 .f32) (x1 : Vec Ideal S1x2048x128 .f32) (x2 : Vec Ideal S128x256 .f32) (x3 x4 x5 : Vec Ideal S256 .f32)
    (u : Fin 1) (r : Fin 512) (h : Fin 256) :
    k0_pay1 (k0_pay2 x0 x1 x2 x3 x4 x5) (Scalar.ofBits .f32 0x00000000#32) (ix3 u r h)
      = GcnSpec.row (fun m : Fin 2048 => x0 (ix3 (0 : Fin 1) r m)) (fun (m : Fin 2048) (f : Fin 128) => x1 (ix3 (0 : Fin 1) m f))
          (fun (f : Fin 128) (k : Fin 256) => x2 (ix2 f k)) (fun k : Fin 256 => x3 (ix1 k)) (fun k : Fin 256 => x4 (ix1 k))
          (fun k : Fin 256 => x5 (ix1 k)) h := by
  rw [pay0_eq, lnRelu_apply]
  unfold GcnSpec.row
  refine congrArg (fun l => GcnSpec.normRelu l _ _ h) ?_
  funext k
  exact lin0_apply x0 x1 x2 x3 r k

/-- REGION 1's likewise. -/
theorem pay1_apply (x0 : Vec Ideal S1x512x2048 .f32) (x1 : Vec Ideal S1x2048x256 .f32) (x2 : Vec Ideal S256x256 .f32) (x3 x4 x5 : Vec Ideal S256 .f32)
    (u : Fin 1) (r : Fin 512) (h : Fin 256) :
    k1_pay1 (k1_pay2 x0 x1 x2 x3 x4 x5) (Scalar.ofBits .f32 0x00000000#32) (ix3 u r h)
      = GcnSpec.row (fun m : Fin 2048 => x0 (ix3 (0 : Fin 1) r m)) (fun (m : Fin 2048) (f : Fin 256) => x1 (ix3 (0 : Fin 1) m f))
          (fun (f : Fin 256) (k : Fin 256) => x2 (ix2 f k)) (fun k : Fin 256 => x3 (ix1 k)) (fun k : Fin 256 => x4 (ix1 k))
          (fun k : Fin 256 => x5 (ix1 k)) h := by
  rw [pay1_eq, lnRelu_apply]
  unfold GcnSpec.row
  refine congrArg (fun l => GcnSpec.normRelu l _ _ h) ?_
  funext k
  exact lin1_apply x0 x1 x2 x3 r k

end Cert.KernelIdeal.Pay

end
-- ==== Proof.Arr0.lean ====
/-
  From blocks to the array, region 0: what the first pallas_call leaves in its output array, for any contents `V` the
  region is entered with.

  The grid is 32 batch elements by 4 row tiles of 512 rows. At a point the output block is rows
  `512·tile … 512·tile + 511` of batch element `b`; the adjacency block is the same rows with the whole contracted axis; the
  feature block is all of batch element `b`; the weights and the three vectors are whole. So what a point writes back is
  its block of ONE whole-array function, `GcnSpec.layer` of the entry arrays (`flushed0_eq`, through the payload read at a
  coordinate); the 128 blocks cover the output array (`cover0`: the point for row `n` of batch `b` is the one with block
  index `(b, n / 512, 0)`); hence the array after the region is that function (`final0`).
-/
import proofs.«104312_j33552284516575_1_alg».proof.Proof.Gen.KernelIdeal.Frame
import proofs.«104312_j33552284516575_1_alg».proof.Proof.Pay
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps of region 0, decided once over its 128 points: the adjacency window moves with the output window on
    the batch and row-tile axes and takes the whole contracted axis; the feature window moves on the batch axis only; the
    weights and the three vectors are whole; the output's block indices stay in range. -/
theorem idx_facts0 : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 3) ≤ 31 ∧ win0_6.index t (1 : Fin 3) ≤ 3 ∧ win0_6.index t (2 : Fin 3) = 0 :=
  (by decide +kernel : ∀ t : Fin grid0.N, _)

/-- Every (batch element, row tile) pair is some point's output block. -/
theorem idx_onto0 : ∀ (q0 : Fin 32) (q1 : Fin 4), ∃ t : Fin cfg0.N, win0_6.index t = ![q0.val, q1.val, 0] :=
  (by decide +kernel : ∀ (q0 : Fin 32) (q1 : Fin 4), ∃ t : Fin grid0.N, win0_6.index t = ![q0.val, q1.val, 0])

/-- WHAT POINT `t` OF REGION 0 WRITES BACK is block `t` of the layer of the arrays as the region finds them: row `r` of the
    block is the layer's row of the adjacency's row `512·(row tile) + r` of the point's batch element. -/
theorem flushed0_eq (c : Dev nD) (t : Fin cfg0.N) :
    (dat0 V c).flushed 6 t = ((cfg0.win 6).blk t).view.read (Elt Ideal)
      (GcnSpec.layer (V c main_arg0) (V c main_arg1) (V c main_arg2) (V c main_arg3) (V c main_arg4) (V c main_arg5)) := by
  show (cfg0.win 6).cut (grid0.coords t) ((dat0 V c).after 6 t) = _
  rw [after0_6]
  unfold out0_6
  rw [View.canon_unit_zero hz3]
  simp only [View.ld_unit_zero (S := S1x512x2048) hz3, View.ld_unit_zero (S := S1x2048x128) hz3, View.ld_unit_zero (S := S128x256) hz2, View.ld_unit_zero (S := S256) hz1]
  funext j
  show k0_pay1 (k0_pay2 (iblk0 V c 0 t) (iblk0 V c 1 t) (iblk0 V c 2 t) (iblk0 V c 3 t) (iblk0 V c 4 t) (iblk0 V c 5 t)) (Scalar.ofBits .f32 0x00000000#32) j
    = GcnSpec.layer (V c main_arg0) (V c main_arg1) (V c main_arg2) (V c main_arg3) (V c main_arg4) (V c main_arg5) (((cfg0.win 6).blk t).view.emb j)
  obtain ⟨u, r, h, rfl⟩ : ∃ (u : Fin 1) (r : Fin 512) (h : Fin 256), j = ix3 u r h := ⟨j 0, j 1, j 2, eq_ix3 j⟩
  rw [Pay.pay0_apply]
  obtain ⟨e00, e01, e02, e10, e11, e12, e20, e21, e3, e4, e5, b0, b1, e62⟩ := idx_facts0 t
  have hu : u.val = 0 := by omega
  have E0 : ((((cfg0.win 6).blk t).view.emb (ix3 u r h)) 0).val = win0_6.index t (0 : Fin 3) * 1 + 1 * u.val := rfl
  have E1 : ((((cfg0.win 6).blk t).view.emb (ix3 u r h)) 1).val = win0_6.index t (1 : Fin 3) * 512 + 1 * r.val := rfl
  have E2 : ((((cfg0.win 6).blk t).view.emb (ix3 u r h)) 2).val = win0_6.index t (2 : Fin 3) * 256 + 1 * h.val := rfl
  have eh : (((cfg0.win 6).blk t).view.emb (ix3 u r h)) 2 = h := Fin.ext (by rw [E2, e62]; omega)
  show _ = GcnSpec.layerAt _ _ _ _ _ _ _ _ ((((cfg0.win 6).blk t).view.emb (ix3 u r h)) 2)
  rw [eh]
  unfold GcnSpec.layerAt
  refine GcnSpec.row_congr (fun m => ?_) (fun m f => ?_) (fun f k => ?_) (fun k => ?_) (fun k => ?_) (fun k => ?_) h
  · show V c main_arg0 (((cfg0.win 0).blk t).view.emb (ix3 (0 : Fin 1) r m)) = V c main_arg0 _
    refine congrArg (V c main_arg0) (funext fun a => Fin.ext ?_)
    match a with
    | ⟨0, _⟩ => show win0_0.index t (0 : Fin 3) * 1 + 1 * 0 = _; rw [E0]; omega
    | ⟨1, _⟩ => show win0_0.index t (1 : Fin 3) * 512 + 1 * r.val = _; rw [E1]; omega
    | ⟨2, _⟩ => show win0_0.index t (2 : Fin 3) * 2048 + 1 * m.val = m.val; omega
  · show V c main_arg1 (((cfg0.win 1).blk t).view.emb (ix3 (0 : Fin 1) m f)) = V c main_arg1 _
    refine congrArg (V c main_arg1) (funext fun a => Fin.ext ?_)
    match a with
    | ⟨0, _⟩ => show win0_1.index t (0 : Fin 3) * 1 + 1 * 0 = _; rw [E0]; omega
    | ⟨1, _⟩ => show win0_1.index t (1 : Fin 3) * 2048 + 1 * m.val = m.val; omega
    | ⟨2, _⟩ => show win0_1.index t (2 : Fin 3) * 128 + 1 * f.val = f.val; omega
  · show V c main_arg2 (((cfg0.win 2).blk t).view.emb (ix2 f k)) = V c main_arg2 _
    refine congrArg (V c main_arg2) (funext fun a => Fin.ext ?_)
    match a with
    | ⟨0, _⟩ => show win0_2.index t (0 : Fin 2) * 128 + 1 * f.val = f.val; omega
    | ⟨1, _⟩ => show win0_2.index t (1 : Fin 2) * 256 + 1 * k.val = k.val; omega
  · show V c main_arg3 (((cfg0.win 3).blk t).view.emb (ix1 k)) = V c main_arg3 _
    refine congrArg (V c main_arg3) (funext fun a => Fin.ext ?_)
    match a with
    | ⟨0, _⟩ => show win0_3.index t (0 : Fin 1) * 256 + 1 * k.val = k.val; omega
  · show V c main_arg4 (((cfg0.win 4).blk t).view.emb (ix1 k)) = V c main_arg4 _
    refine congrArg (V c main_arg4) (funext fun a => Fin.ext ?_)
    match a with
    | ⟨0, _⟩ => show win0_4.index t (0 : Fin 1) * 256 + 1 * k.val = k.val; omega
  · show V c main_arg5 (((cfg0.win 5).blk t).view.emb (ix1 k)) = V c main_arg5 _
    refine congrArg (V c main_arg5) (funext fun a => Fin.ext ?_)
    match a with
    | ⟨0, _⟩ => show win0_5.index t (0 : Fin 1) * 256 + 1 * k.val = k.val; omega

/-- An index of region 0's output array is in point `t`'s block iff each coordinate is in the block's range on its axis. -/
theorem mem_blk0 (t : Fin cfg0.N) (i : S32x2048x256.Idx) :
    i ∈ ((cfg0.win 6).blk t).view.set ↔ ∀ a : Fin 3, win0_6.index t a * S1x512x256.size a ≤ (i a).val ∧ (i a).val < win0_6.index t a * S1x512x256.size a + S1x512x256.size a := by
  show i ∈ ((View.whole main_v0).slice (win0_6.rect t)).set ↔ _
  rw [View.set_slice_whole, Rect.mem_set_unit]
  exact Iff.rfl

/-- Region 0's output blocks cover its array: index `(b, n, h)` lies in the block of the point with block index `(b, n / 512, 0)`. -/
theorem cover0 (i : S32x2048x256.Idx) : ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 256 := (i 2).isLt
  obtain ⟨t, ht⟩ := idx_onto0 ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk0]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 256 ≤ (i 2).val ∧ (i 2).val < win0_6.index t (2 : Fin 3) * 256 + 256; omega

/-- REGION 0's OUTPUT ARRAY after the region: the layer of the arrays the region was entered with. -/
theorem final0 (c : Dev nD) :
    (dat0 V c).arrAt 6 cfg0.N
      = GcnSpec.layer (V c main_arg0) (V c main_arg1) (V c main_arg2) (V c main_arg3) (V c main_arg4) (V c main_arg5) :=
  (dat0 V c).arrAt_eq_of_cover 6 _ (fun t _ => flushed0_eq V c t) cover0

end Cert.KernelIdeal.Region0

end
-- ==== Proof.Arr1.lean ====
/-
  From blocks to the array, region 1: what the second pallas_call leaves in its output array, for any contents `V` the
  region is entered with.

  The grid is 32 batch elements by 4 row tiles of 512 rows. At a point the output block is rows
  `512·tile … 512·tile + 511` of batch element `b`; the adjacency block is the same rows with the whole contracted axis; the
  feature block is all of batch element `b`; the weights and the three vectors are whole. So what a point writes back is
  its block of ONE whole-array function, `GcnSpec.layer` of the entry arrays (`flushed1_eq`, through the payload read at a
  coordinate); the 128 blocks cover the output array (`cover1`: the point for row `n` of batch `b` is the one with block
  index `(b, n / 512, 0)`); hence the array after the region is that function (`final1`).
-/
import proofs.«104312_j33552284516575_1_alg».proof.Proof.Gen.KernelIdeal.Frame
import proofs.«104312_j33552284516575_1_alg».proof.Proof.Pay
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps of region 1, decided once over its 128 points: the adjacency window moves with the output window on
    the batch and row-tile axes and takes the whole contracted axis; the feature window moves on the batch axis only; the
    weights and the three vectors are whole; the output's block indices stay in range. -/
theorem idx_facts1 : ∀ t : Fin cfg1.N,
    win1_0.index t (0 : Fin 3) = win1_6.index t (0 : Fin 3) ∧ win1_0.index t (1 : Fin 3) = win1_6.index t (1 : Fin 3) ∧ win1_0.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 3) ≤ 31 ∧ win1_6.index t (1 : Fin 3) ≤ 3 ∧ win1_6.index t (2 : Fin 3) = 0 :=
  (by decide +kernel : ∀ t : Fin grid1.N, _)

/-- Every (batch element, row tile) pair is some point's output block. -/
theorem idx_onto1 : ∀ (q0 : Fin 32) (q1 : Fin 4), ∃ t : Fin cfg1.N, win1_6.index t = ![q0.val, q1.val, 0] :=
  (by decide +kernel : ∀ (q0 : Fin 32) (q1 : Fin 4), ∃ t : Fin grid1.N, win1_6.index t = ![q0.val, q1.val, 0])

/-- WHAT POINT `t` OF REGION 1 WRITES BACK is block `t` of the layer of the arrays as the region finds them: row `r` of the
    block is the layer's row of the adjacency's row `512·(row tile) + r` of the point's batch element. -/
theorem flushed1_eq (c : Dev nD) (t : Fin cfg1.N) :
    (dat1 V c).flushed 6 t = ((cfg1.win 6).blk t).view.read (Elt Ideal)
      (GcnSpec.layer (V c main_arg0) (V c main_v0) (V c main_arg6) (V c main_arg7) (V c main_arg8) (V c main_arg9)) := by
  show (cfg1.win 6).cut (grid1.coords t) ((dat1 V c).after 6 t) = _
  rw [after1_6]
  unfold out1_6
  rw [View.canon_unit_zero hz3]
  simp only [View.ld_unit_zero (S := S1x512x2048) hz3, View.ld_unit_zero (S := S1x2048x256) hz3, View.ld_unit_zero (S := S256x256) hz2, View.ld_unit_zero (S := S256) hz1]
  funext j
  show k1_pay1 (k1_pay2 (iblk1 V c 0 t) (iblk1 V c 1 t) (iblk1 V c 2 t) (iblk1 V c 3 t) (iblk1 V c 4 t) (iblk1 V c 5 t)) (Scalar.ofBits .f32 0x00000000#32) j
    = GcnSpec.layer (V c main_arg0) (V c main_v0) (V c main_arg6) (V c main_arg7) (V c main_arg8) (V c main_arg9) (((cfg1.win 6).blk t).view.emb j)
  obtain ⟨u, r, h, rfl⟩ : ∃ (u : Fin 1) (r : Fin 512) (h : Fin 256), j = ix3 u r h := ⟨j 0, j 1, j 2, eq_ix3 j⟩
  rw [Pay.pay1_apply]
  obtain ⟨e00, e01, e02, e10, e11, e12, e20, e21, e3, e4, e5, b0, b1, e62⟩ := idx_facts1 t
  have hu : u.val = 0 := by omega
  have E0 : ((((cfg1.win 6).blk t).view.emb (ix3 u r h)) 0).val = win1_6.index t (0 : Fin 3) * 1 + 1 * u.val := rfl
  have E1 : ((((cfg1.win 6).blk t).view.emb (ix3 u r h)) 1).val = win1_6.index t (1 : Fin 3) * 512 + 1 * r.val := rfl
  have E2 : ((((cfg1.win 6).blk t).view.emb (ix3 u r h)) 2).val = win1_6.index t (2 : Fin 3) * 256 + 1 * h.val := rfl
  have eh : (((cfg1.win 6).blk t).view.emb (ix3 u r h)) 2 = h := Fin.ext (by rw [E2, e62]; omega)
  show _ = GcnSpec.layerAt _ _ _ _ _ _ _ _ ((((cfg1.win 6).blk t).view.emb (ix3 u r h)) 2)
  rw [eh]
  unfold GcnSpec.layerAt
  refine GcnSpec.row_congr (fun m => ?_) (fun m f => ?_) (fun f k => ?_) (fun k => ?_) (fun k => ?_) (fun k => ?_) h
  · show V c main_arg0 (((cfg1.win 0).blk t).view.emb (ix3 (0 : Fin 1) r m)) = V c main_arg0 _
    refine congrArg (V c main_arg0) (funext fun a => Fin.ext ?_)
    match a with
    | ⟨0, _⟩ => show win1_0.index t (0 : Fin 3) * 1 + 1 * 0 = _; rw [E0]; omega
    | ⟨1, _⟩ => show win1_0.index t (1 : Fin 3) * 512 + 1 * r.val = _; rw [E1]; omega
    | ⟨2, _⟩ => show win1_0.index t (2 : Fin 3) * 2048 + 1 * m.val = m.val; omega
  · show V c main_v0 (((cfg1.win 1).blk t).view.emb (ix3 (0 : Fin 1) m f)) = V c main_v0 _
    refine congrArg (V c main_v0) (funext fun a => Fin.ext ?_)
    match a with
    | ⟨0, _⟩ => show win1_1.index t (0 : Fin 3) * 1 + 1 * 0 = _; rw [E0]; omega
    | ⟨1, _⟩ => show win1_1.index t (1 : Fin 3) * 2048 + 1 * m.val = m.val; omega
    | ⟨2, _⟩ => show win1_1.index t (2 : Fin 3) * 256 + 1 * f.val = f.val; omega
  · show V c main_arg6 (((cfg1.win 2).blk t).view.emb (ix2 f k)) = V c main_arg6 _
    refine congrArg (V c main_arg6) (funext fun a => Fin.ext ?_)
    match a with
    | ⟨0, _⟩ => show win1_2.index t (0 : Fin 2) * 256 + 1 * f.val = f.val; omega
    | ⟨1, _⟩ => show win1_2.index t (1 : Fin 2) * 256 + 1 * k.val = k.val; omega
  · show V c main_arg7 (((cfg1.win 3).blk t).view.emb (ix1 k)) = V c main_arg7 _
    refine congrArg (V c main_arg7) (funext fun a => Fin.ext ?_)
    match a with
    | ⟨0, _⟩ => show win1_3.index t (0 : Fin 1) * 256 + 1 * k.val = k.val; omega
  · show V c main_arg8 (((cfg1.win 4).blk t).view.emb (ix1 k)) = V c main_arg8 _
    refine congrArg (V c main_arg8) (funext fun a => Fin.ext ?_)
    match a with
    | ⟨0, _⟩ => show win1_4.index t (0 : Fin 1) * 256 + 1 * k.val = k.val; omega
  · show V c main_arg9 (((cfg1.win 5).blk t).view.emb (ix1 k)) = V c main_arg9 _
    refine congrArg (V c main_arg9) (funext fun a => Fin.ext ?_)
    match a with
    | ⟨0, _⟩ => show win1_5.index t (0 : Fin 1) * 256 + 1 * k.val = k.val; omega

/-- An index of region 1's output array is in point `t`'s block iff each coordinate is in the block's range on its axis. -/
theorem mem_blk1 (t : Fin cfg1.N) (i : S32x2048x256.Idx) :
    i ∈ ((cfg1.win 6).blk t).view.set ↔ ∀ a : Fin 3, win1_6.index t a * S1x512x256.size a ≤ (i a).val ∧ (i a).val < win1_6.index t a * S1x512x256.size a + S1x512x256.size a := by
  show i ∈ ((View.whole main_v1).slice (win1_6.rect t)).set ↔ _
  rw [View.set_slice_whole, Rect.mem_set_unit]
  exact Iff.rfl

/-- Region 1's output blocks cover its array: index `(b, n, h)` lies in the block of the point with block index `(b, n / 512, 0)`. -/
theorem cover1 (i : S32x2048x256.Idx) : ∃ t : Fin cfg1.N, (cfg1.win 6).flush t = true ∧ i ∈ ((cfg1.win 6).blk t).view.set := by
  have hi0 : (i 0).val < 32 := (i 0).isLt
  have hi1 : (i 1).val < 2048 := (i 1).isLt
  have hi2 : (i 2).val < 256 := (i 2).isLt
  obtain ⟨t, ht⟩ := idx_onto1 ⟨(i 0).val, hi0⟩ ⟨(i 1).val / 512, by omega⟩
  have q0 : win1_6.index t (0 : Fin 3) = (i 0).val := congrFun ht 0
  have q1 : win1_6.index t (1 : Fin 3) = (i 1).val / 512 := congrFun ht 1
  have q2 : win1_6.index t (2 : Fin 3) = 0 := congrFun ht 2
  refine ⟨t, flush1_6 t, ?_⟩
  rw [mem_blk1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 256 ≤ (i 2).val ∧ (i 2).val < win1_6.index t (2 : Fin 3) * 256 + 256; omega

/-- REGION 1's OUTPUT ARRAY after the region: the layer of the arrays the region was entered with. -/
theorem final1 (c : Dev nD) :
    (dat1 V c).arrAt 6 cfg1.N
      = GcnSpec.layer (V c main_arg0) (V c main_v0) (V c main_arg6) (V c main_arg7) (V c main_arg8) (V c main_arg9) :=
  (dat1 V c).arrAt_eq_of_cover 6 _ (fun t _ => flushed1_eq V c t) cover1

end Cert.KernelIdeal.Region1

end
-- ==== Proof.KernelValue.lean ====
/-
  What the idealized kernel program returns, as a function of its arguments.

  After the second region the host takes, for each batch element and feature, the mean over the 2048 nodes of the
  second layer's output and applies two linear heads with their biases (`head`: the thirteen host operations after
  region 1, composed). The second layer's output is the layer function of the adjacency, the FIRST layer's output and the
  second layer's parameters (`Region1.final1` at region 1's entry contents), and the first layer's output is the layer
  function of the arguments (`Region0.final0` at the launch contents); every other array a region or the host reads is
  still as launched. So each result is `head (layer A (layer A X W₁ b₁ g₁ β₁) W₂ b₂ g₂ β₂) W b` of the launch arrays.
-/
import proofs.«104312_j33552284516575_1_alg».proof.Proof.KernelRun
import proofs.«104312_j33552284516575_1_alg».proof.Proof.Arr0
import proofs.«104312_j33552284516575_1_alg».proof.Proof.Arr1
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

/-- The host operations after the second region, composed: the mean of `H` over its node axis (the sum from the zero word,
    divided by the f32 word of `2048.0`), times the head's weights, plus its bias broadcast over the batch. -/
def head (H : FVec Ideal S32x2048x256 .f32) (Wh : FVec Ideal S256x64 .f32) (bh : FVec Ideal S64 .f32) : FVec Ideal S32x64 .f32 :=
  addf (F := Ideal)
    (Host.dotGeneral (F := Ideal) dot_S32x256_S256x64_S32x64_1_0_0_1_n_n none
      (Host.divf (F := Ideal)
        (Host.reduceAdd (F := Ideal) H (constant (F := Ideal) S_ .f32 0x00000000#32) reducesTo_S32x2048x256_S32x256_d1 h_S_)
        (broadcastInDim S32x256 ![] bcast_S_S32x256 (constant (F := Ideal) S_ .f32 0x45000000#32)))
      Wh)
    (broadcastInDim S32x64 ![0, 1] bcast_S1x64_S32x64_0_1 (broadcastInDim S1x64 ![1] bcast_S64_S1x64_1 bh))

variable (m : (ℓ : Loc nD τ sig) → Buf (Elt Ideal) ℓ) (ρ : Dev nD → PrngReg)

/-- The two layers, of the launch arrays. -/
def net (c : Dev nD) : FVec Ideal S32x2048x256 .f32 :=
  GcnSpec.layer (m ((c : Thread nD τ).loc main_arg0))
    (GcnSpec.layer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8))
    (m ((c : Thread nD τ).loc main_arg9))

/-! ## Region 1's entry contents -/

theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg6 (c : Dev nD) : V1 m ρ c main_arg6 = m ((c : Thread nD τ).loc main_arg6) := W1_of_ne m ρ c main_arg6 (by decide)
theorem V1_arg7 (c : Dev nD) : V1 m ρ c main_arg7 = m ((c : Thread nD τ).loc main_arg7) := W1_of_ne m ρ c main_arg7 (by decide)
theorem V1_arg8 (c : Dev nD) : V1 m ρ c main_arg8 = m ((c : Thread nD τ).loc main_arg8) := W1_of_ne m ρ c main_arg8 (by decide)
theorem V1_arg9 (c : Dev nD) : V1 m ρ c main_arg9 = m ((c : Thread nD τ).loc main_arg9) := W1_of_ne m ρ c main_arg9 (by decide)

/-- Region 1 finds the first layer's output in region 0's output array. -/
theorem V1_v0 (c : Dev nD) :
    V1 m ρ c main_v0 = GcnSpec.layer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  (W1_arr m ρ c 6).trans (Region0.final0 (V0 m ρ) c)

/-! ## The contents the closing host operations read -/

/-- Region 1's output array after region 1: the two layers. -/
theorem W2_v1 (c : Dev nD) : W2 m ρ c (Proc.devRef .tc main_v1) = net m c := by
  refine (W2_arr m ρ c 6).trans ((Region1.final1 (V1 m ρ) c).trans ?_)
  rw [V1_arg0, V1_v0, V1_arg6, V1_arg7, V1_arg8, V1_arg9]
  rfl

theorem W2_arg10 (c : Dev nD) : W2 m ρ c (Proc.devRef .tc main_arg10) = m ((c : Thread nD τ).loc main_arg10) :=
  (W2_of_ne m ρ c main_arg10 (by decide)).trans (W1_of_ne m ρ c main_arg10 (by decide))
theorem W2_arg11 (c : Dev nD) : W2 m ρ c (Proc.devRef .tc main_arg11) = m ((c : Thread nD τ).loc main_arg11) :=
  (W2_of_ne m ρ c main_arg11 (by decide)).trans (W1_of_ne m ρ c main_arg11 (by decide))
theorem W2_arg12 (c : Dev nD) : W2 m ρ c (Proc.devRef .tc main_arg12) = m ((c : Thread nD τ).loc main_arg12) :=
  (W2_of_ne m ρ c main_arg12 (by decide)).trans (W1_of_ne m ρ c main_arg12 (by decide))
theorem W2_arg13 (c : Dev nD) : W2 m ρ c (Proc.devRef .tc main_arg13) = m ((c : Thread nD τ).loc main_arg13) :=
  (W2_of_ne m ρ c main_arg13 (by decide)).trans (W1_of_ne m ρ c main_arg13 (by decide))

/-! ## The results -/

theorem W3_v8 (c : Dev nD) :
    W3 m ρ c (Proc.devRef .tc main_v8)
      = head (net m c) (m ((c : Thread nD τ).loc main_arg10)) (m ((c : Thread nD τ).loc main_arg11)) := by
  rw [← W2_v1 m ρ c, ← W2_arg10 m ρ c, ← W2_arg11 m ρ c]
  show StableHlo.after hostOps2 (W2 m ρ c) (Proc.devRef .tc main_v8) = _
  after_results
  rfl

theorem W3_v12 (c : Dev nD) :
    W3 m ρ c (Proc.devRef .tc main_v12)
      = head (net m c) (m ((c : Thread nD τ).loc main_arg12)) (m ((c : Thread nD τ).loc main_arg13)) := by
  rw [← W2_v1 m ρ c, ← W2_arg12 m ρ c, ← W2_arg13 m ρ c]
  show StableHlo.after hostOps2 (W2 m ρ c) (Proc.devRef .tc main_v12) = _
  after_results
  rfl

/-- THE IDEALIZED KERNEL'S RUN: it ends with each result at the head of the two layers of the launch arrays, the arguments as
    launched. -/
theorem run : θ_run defs (onTc (τ := τ) (main (F := Ideal))) ⟨m, fun _ => 0, ρ⟩ (fun r => ∀ c : Dev nD,
      r.2.mem ((c.tc : Thread nD τ).loc main_v8) = head (net m c) (m ((c : Thread nD τ).loc main_arg10)) (m ((c : Thread nD τ).loc main_arg11))
      ∧ r.2.mem ((c.tc : Thread nD τ).loc main_v12) = head (net m c) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W3_v8 m ρ c), (h c).2.1.trans (W3_v12 m ρ c), (h c).2.2⟩)
    (Run.run_results m ρ)

end Cert.KernelIdeal.Result

end
-- ==== Proof.Bridge.lean ====
/-
  The reference's two results are the kernel program's function of the arguments.

  Each result of the reference is its closing host operations (the mean over the nodes, a head's linear map, its bias) of
  the second layer's stage, and those operations are the kernel program's own closing operations, literal for literal
  (the sum from the zero word, the f32 word of `2048.0`, the same contraction): `head`. With the two layers' stages
  (`layer2_eq`) each result is `head (layer A (layer A X W₁ b₁ g₁ β₁) W₂ b₂ g₂ β₂) W b`.
-/
import proofs.«104312_j33552284516575_1_alg».proof.Proof.RefValue
import proofs.«104312_j33552284516575_1_alg».proof.Proof.KernelValue

noncomputable section

namespace Cert.Bridge

open Idealize.ShloMosaic

variable (x0 : FVec Ideal Cert.ReferenceIdeal.S32x2048x2048 .f32) (x1 : FVec Ideal Cert.ReferenceIdeal.S32x2048x128 .f32)
  (x2 : FVec Ideal Cert.ReferenceIdeal.S128x256 .f32) (x3 x4 x5 : FVec Ideal Cert.ReferenceIdeal.S256 .f32)
  (x6 : FVec Ideal Cert.ReferenceIdeal.S256x256 .f32) (x7 x8 x9 : FVec Ideal Cert.ReferenceIdeal.S256 .f32)
  (xw : FVec Ideal Cert.ReferenceIdeal.S256x64 .f32) (xb : FVec Ideal Cert.ReferenceIdeal.S64 .f32)

/-- The reference's first result. -/
theorem out0_eq :
    Cert.ReferenceIdeal.Read.val_main_v66 (F := Ideal) x0 x1 x2 x3 x4 x5 x6 x7 x8 x9 xw xb
      = Cert.KernelIdeal.Result.head (GcnSpec.layer x0 (GcnSpec.layer x0 x1 x2 x3 x4 x5) x6 x7 x8 x9) xw xb := by
  rw [← Cert.ReferenceIdeal.RefValue.layer2_eq]
  rfl

/-- The reference's second result. -/
theorem out1_eq :
    Cert.ReferenceIdeal.Read.val_main_v70 (F := Ideal) x0 x1 x2 x3 x4 x5 x6 x7 x8 x9 xw xb
      = Cert.KernelIdeal.Result.head (GcnSpec.layer x0 (GcnSpec.layer x0 x1 x2 x3 x4 x5) x6 x7 x8 x9) xw xb := by
  rw [← Cert.ReferenceIdeal.RefValue.layer2_eq]
  rfl

end Cert.Bridge

end
-- ==== Proof.lean ====
/-
  A two-layer graph convolution, fused per layer into one kernel, against its plain reference.

  Per batch element, with adjacency `A` (2048 × 2048) and node features `X`, each layer computes, row by row,
  `relu (LayerNorm ((A · X) · W + b))`: the row's aggregate over the nodes, a linear map with its bias, normalisation over
  the 256 features (mean and variance as sums divided by 256, the reciprocal square root of the variance plus `ε`, scale
  and shift), and the rectifier. The kernel program runs each layer as one launch over 32 × 4 row tiles of 512 rows
  with the whole contracted axis in every block, the first launch's output array feeding the second; the reference
  runs the same operations on whole arrays. Both then take the mean over the nodes and apply two linear heads.

  At the ideal values the kernel's narrowing of its matrix operands is the identity, its matrix products and the host's
  contractions are the same sums, and a row of a layer's output depends on one row of the adjacency only, so the tiling
  changes nothing: each launch leaves `GcnSpec.layer` of its entry arrays in its output array, and both programs return
  `head (layer A (layer A X W₁ b₁ g₁ β₁) W₂ b₂ g₂ β₂) W b` for each head. No law beyond re-indexing of sums is used,
  so the precondition is never opened. The ideal pass rewrote nothing, so its conjunct is `True`.
-/
import proofs.«104312_j33552284516575_1_alg».proof.Defs
import proofs.«104312_j33552284516575_1_alg».proof.Proof.Gen.Kernel
import proofs.«104312_j33552284516575_1_alg».proof.Proof.Gen.Kernel.Skeleton
import proofs.«104312_j33552284516575_1_alg».proof.Proof.Gen.Kernel.Launch
import proofs.«104312_j33552284516575_1_alg».proof.Proof.Gen.Kernel.Points
import proofs.«104312_j33552284516575_1_alg».proof.Proof.Gen.Kernel.Frame
import proofs.«104312_j33552284516575_1_alg».proof.Proof.Gen.KernelIdeal
import proofs.«104312_j33552284516575_1_alg».proof.Proof.Gen.KernelIdeal.Skeleton
import proofs.«104312_j33552284516575_1_alg».proof.Proof.Gen.KernelIdeal.Launch
import proofs.«104312_j33552284516575_1_alg».proof.Proof.Gen.KernelIdeal.Points
import proofs.«104312_j33552284516575_1_alg».proof.Proof.Gen.KernelIdeal.Frame
import proofs.«104312_j33552284516575_1_alg».proof.Proof.Gen.ReferenceIdeal
import proofs.«104312_j33552284516575_1_alg».proof.Proof.Gen.Pre_finite_inputs
import proofs.«104312_j33552284516575_1_alg».proof.Proof.Gen.ReferenceIdeal.Run
import proofs.«104312_j33552284516575_1_alg».proof.Proof.Gen.ReferenceIdeal.Read
import proofs.«104312_j33552284516575_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the idealized reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both idealized programs end with each result at the head of the two layers
    of those arguments: the kernel program by its regions' arrays, the reference by its stages. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, -, -⟩ := hagree c
    rw [Cert.ReferenceIdeal.Read.val_main_v66_eq, a0, a1, a2, a3, a4, a5, a6, a7, a8, a9, a10, a11]
    exact Cert.Bridge.out0_eq _ _ _ _ _ _ _ _ _ _ _ _
  · obtain ⟨a0, a1, a2, a3, a4, a5, a6, a7, a8, a9, -, -, a12, a13⟩ := hagree c
    rw [Cert.ReferenceIdeal.Read.val_main_v70_eq, a0, a1, a2, a3, a4, a5, a6, a7, a8, a9, a12, a13]
    exact Cert.Bridge.out1_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
